-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x2048 : Shape := ⟨2, ![16384, 2048]⟩
abbrev S64x2048x64 : Shape := ⟨3, ![64, 2048, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S64x2048x64 : S_.BroadcastsInDim S64x2048x64 (![] : Fin 0 → Fin S64x2048x64.rank)
  reducesTo_S64x2048x64_S_d0_1_2 : S64x2048x64.ReducesTo [0, 1, 2] S_

variable [Facts]

def fn {F : FTy → Type} [FloatOps F] (main_arg0 : FVec F S16384x64 .f32) (main_arg1 : FVec F S16384x2048 .f32) (main_arg2 : FVec F S64x2048x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S16384x64 : Shape := ⟨2, ![16384, 64]⟩
abbrev S16384x2048 : Shape := ⟨2, ![16384, 2048]⟩
abbrev S64x2048x64 : Shape := ⟨3, ![64, 2048, 64]⟩
abbrev S64x2048 : Shape := ⟨2, ![64, 2048]⟩
abbrev S64x512x64 : Shape := ⟨3, ![64, 512, 64]⟩
abbrev S64x512 : Shape := ⟨2, ![64, 512]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x64, .f32⟩
  | .hbm, ⟨1, _⟩ => ⟨S16384x2048, .f32⟩
  | .hbm, ⟨2, _⟩ => ⟨S64x2048x64, .f32⟩
  | .hbm, ⟨3, _⟩ => ⟨S64x2048, .f32⟩
  | .hbm, ⟨4, _⟩ => ⟨S16384x2048, .f32⟩
  | .local _ .vmem, ⟨0, _⟩ => ⟨S64x512x64, .f32⟩
  | .local _ .vmem, ⟨1, _⟩ => ⟨S64x512x64, .f32⟩
  | .local _ .vmem, ⟨2, _⟩ => ⟨S64x512, .f32⟩
  | .local _ .vmem, ⟨3, _⟩ => ⟨S64x512, .f32⟩
  | .local _ .vmem, ⟨4, _⟩ => ⟨S1024x64, .f32⟩
  | .local _ .vmem, ⟨5, _⟩ => ⟨S1024x64, .f32⟩
  | .local _ .vmem, ⟨6, _⟩ => ⟨S64x1024, .f32⟩
  | .local _ .vmem, ⟨7, _⟩ => ⟨S64x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64x512x64_S64x512x64_0_0_0 : ∀ a, (![0, 0, 0] : Fin 3 → Nat) a + S64x512x64.size a ≤ S64x512x64.size a
  h_S64x512x64 : 0 < S64x512x64.numel
  reduces_S64x512x64_S64x512 : S64x512x64.Reduces [2] S64x512
  inb_S64x512_S64x512_0_0 : ∀ a, (![0, 0] : Fin 2 → Nat) a + S64x512.size a ≤ S64x512.size a
  h_S64x512 : 0 < S64x512.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x64.size a ≤ S64x2048x64.size a
  hwx0_0 : ∀ i : grid0.Coords, EltTy.bits .f32 = 32 ∨ (Rect.block (s := S64x2048x64) S64x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x2048.size a
  hwx0_1 : ∀ i : grid0.Coords, EltTy.bits .f32 = 32 ∨ (Rect.block (s := S64x2048) S64x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S16384x64.size a
  hwx1_0 : ∀ i : grid1.Coords, EltTy.bits .f32 = 32 ∨ (Rect.block (s := S16384x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x2048.size a
  hwx1_1 : ∀ i : grid1.Coords, EltTy.bits .f32 = 32 ∨ (Rect.block (s := S64x2048) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x2048.size a
  hwx1_2 : ∀ i : grid1.Coords, EltTy.bits .f32 = 32 ∨ (Rect.block (s := S16384x2048) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x2048.size a
  hwx1_3 : ∀ i : grid1.Coords, EltTy.bits .f32 = 32 ∨ (Rect.block (s := S16384x2048) S1024x1024.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg2) S64x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x64 : Shape := ⟨2, ![16384, 64]⟩
abbrev S16384x2048 : Shape := ⟨2, ![16384, 2048]⟩
abbrev S64x2048x64 : Shape := ⟨3, ![64, 2048, 64]⟩
abbrev S_ : Shape := ⟨0, ![]⟩
abbrev S64x2048 : Shape := ⟨2, ![64, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x2048, .f32⟩
  | .hbm, ⟨2, _⟩ => ⟨S64x2048x64, .f32⟩
  | .hbm, ⟨3, _⟩ => ⟨S_, .f32⟩
  | .hbm, ⟨4, _⟩ => ⟨S64x2048, .f32⟩
  | .hbm, ⟨5, _⟩ => ⟨S16384x2048, .f32⟩
  | .hbm, ⟨6, _⟩ => ⟨S16384x2048, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S64x2048x64_S64x2048_d2 : S64x2048x64.ReducesTo [2] S64x2048
  h_S_ : 0 < S_.numel
  dot_S16384x64_S64x2048_S16384x2048_1_0_0_1_n_n_wf : DotDims.WF S16384x64 S64x2048 S16384x2048 [1] [0] [0] [1] [] []

variable [Facts₀]

def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf

class Facts : Prop extends Facts₀ where

variable [Facts]
-- ==== Proof.Spec.lean ====
/-
  What both programs compute, as functions of the argument arrays over the extended reals.
  The weights w[i, j, k] are first summed over their last axis, W(i, j) = Σ_k w[i, j, k]; the result is then
  out[b, j] = (Σ_i x1[b, i] · W(i, j)) · x2[b, j].
  Also here: the index that a one-axis sum over the LAST axis of a rank-3 array inserts is (row, column, k), and
  the two readings of such a sum (inside a kernel body, with the neutral accumulator; on the host, with an
  explicit initial value of zero).
-/
import Idealize.ShloMosaic.PureOps.Ideal.Laws
import Idealize.ShloMosaic.Lib.ValueIdx

noncomputable section

open scoped BigOperators

namespace Cert.BilinearSpec

open Idealize.ShloMosaic Idealize.ShloMosaic.ValueIdx

/-- The weights summed over their last axis: W(i, j) = Σ_k w[i, j, k]. -/
def foldW (w : FVec Ideal ⟨3, ![64, 2048, 64]⟩ .f32) : FVec Ideal ⟨2, ![64, 2048]⟩ .f32 :=
  fun j => ∑ k : Fin 64, w (ix3 (j 0) (j 1) k)

/-- The result from already-summed weights: out[b, j] = (Σ_i x1[b, i] · W(i, j)) · x2[b, j]. -/
def outOf (x1 : FVec Ideal ⟨2, ![16384, 64]⟩ .f32) (x2 : FVec Ideal ⟨2, ![16384, 2048]⟩ .f32)
    (W : FVec Ideal ⟨2, ![64, 2048]⟩ .f32) : FVec Ideal ⟨2, ![16384, 2048]⟩ .f32 :=
  fun j => (∑ i : Fin 64, x1 (ix2 (j 0) i) * W (ix2 i (j 1))) * x2 j

/-- The whole function of the three arguments. -/
def result (x1 : FVec Ideal ⟨2, ![16384, 64]⟩ .f32) (x2 : FVec Ideal ⟨2, ![16384, 2048]⟩ .f32)
    (w : FVec Ideal ⟨3, ![64, 2048, 64]⟩ .f32) : FVec Ideal ⟨2, ![16384, 2048]⟩ .f32 :=
  outOf x1 x2 (foldW w)

/-- Summing a rank-3 array over its last axis: the source index over result index (p, q) with k inserted is (p, q, k). -/
theorem lift_last {A B C : Nat} (h : Shape.Reduces ⟨3, ![A, B, C]⟩ [2] ⟨2, ![A, B]⟩) (p : Fin A) (q : Fin B) (k : Fin C) :
    h.lift (ix2 p q) k = ix3 p q k := by
  funext a
  apply Fin.ext
  match a with
  | ⟨0, _⟩ => rfl
  | ⟨1, _⟩ => rfl
  | ⟨2, _⟩ => rfl

/-- A kernel body's sum over the last axis with the neutral accumulator, read at (p, q). -/
theorem bodySum_apply {A B C : Nat} (x : FVec Ideal ⟨3, ![A, B, C]⟩ .f32) (h : Shape.Reduces ⟨3, ![A, B, C]⟩ [2] ⟨2, ![A, B]⟩)
    (hφ : FKind.Formats .f32) (hacc : (0x00000000#32 : BitVec 32) = FKind.add.neutral .f32 hφ) (p : Fin A) (q : Fin B) :
    multiReduction .add [2] ⟨2, ![A, B]⟩ x 0x00000000#32 h hφ hacc (ix2 p q) = ∑ k : Fin C, x (ix3 p q k) := by
  refine (Ideal.multiReduction_add_single x 0x00000000#32 h hφ hacc (ix2 p q)).trans ?_
  exact Finset.sum_congr rfl fun k _ => congrArg x (lift_last h p q k)

/-- The host's sum over the last axis from the initial value zero, read at (p, q). -/
theorem hostSum_apply {A B C : Nat} (x : FVec Ideal ⟨3, ![A, B, C]⟩ .f32) (h' : Shape.ReducesTo ⟨3, ![A, B, C]⟩ [2] ⟨2, ![A, B]⟩)
    (h : Shape.Reduces ⟨3, ![A, B, C]⟩ [2] ⟨2, ![A, B]⟩) (p : Fin A) (q : Fin B) :
    Ideal.hostReduceAdd h' x (Ideal.ofBits .f32 0x00000000#32) (ix2 p q) = ∑ k : Fin C, x (ix3 p q k) := by
  rw [Ideal.hostReduceAdd_single h' h, Ideal.ofBits_zero_f32, zero_add]
  exact Finset.sum_congr rfl fun k _ => congrArg x (lift_last h p q k)

end Cert.BilinearSpec

end
-- ==== Proof.Stage0.lean ====
/-
  The first kernel call, read as a value: the array it writes is the weights summed over their last axis.
  Grid point t loads the block w[0:64, 512t : 512t+512, 0:64], sums it over the last axis, and writes the result to
  columns 512t … 512t+511 of the [64, 2048] array; the four column blocks tile the array, so the whole array ends
  at W(i, j) = Σ_k w[i, j, k], whatever contents the call found in it.
-/
import proofs.«143878_j54065048322517_1_alg».proof.Proof.Gen.KernelIdeal.Frame
import proofs.«143878_j54065048322517_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FoldValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BilinearSpec

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's stored value at (p, q): the loaded block summed over its last axis. -/
theorem pay_apply (x0 : FVec Ideal S64x512x64 .f32) (p : Fin 64) (q : Fin 512) :
    k0_pay1 (F := Ideal) x0 (ix2 p q) = ∑ k : Fin 64, x0 (ix3 p q k) := by
  unfold k0_pay1
  exact bodySum_apply x0 _ _ _ p q

/-- The two index maps over the grid: the input block is (0, t, 0), the output block (0, t). -/
theorem idx_facts : ∀ t : Fin cfg0.N, win0_0.index t (0 : Fin 3) = 0
    ∧ win0_0.index t (1 : Fin 3) = win0_1.index t (1 : Fin 2)
    ∧ win0_0.index t (2 : Fin 3) = 0
    ∧ win0_1.index t (0 : Fin 2) = 0
    ∧ win0_1.index t (1 : Fin 2) ≤ 3 :=
  (by decide +kernel : ∀ t : Fin grid0.N, _)

/-- Every column block is some point's. -/
theorem idx_onto : ∀ (q1 : Fin 4), ∃ t : Fin cfg0.N, win0_1.index t = ![0, q1.val] :=
  (by decide +kernel : ∀ (q1 : Fin 4), ∃ t : Fin grid0.N, win0_1.index t = ![0, q1.val])

/-- What point t writes back is its block of the summed weights of the array the call reads. -/
theorem flushed_eq (c : Dev nD) (t : Fin cfg0.N) :
    (dat0 V c).flushed 1 t = ((cfg0.win 1).blk t).view.read (Elt Ideal) (foldW (V c main_arg2)) := by
  show (cfg0.win 1).cut (grid0.coords t) ((dat0 V c).after 1 t) = _
  rw [after0_1]
  unfold out0_1
  rw [View.canon_unit_zero zeros2]
  simp only [View.ld_unit_zero (S := S64x512x64) zeros3]
  obtain ⟨e0, e1, e2, e3, e4⟩ := idx_facts t
  funext y
  obtain ⟨p, q, rfl⟩ : ∃ (p : Fin 64) (q : Fin 512), y = ix2 p q := ⟨y 0, y 1, eq_ix2 y⟩
  refine (pay_apply (iblk0 V c 0 t) p q).trans ?_
  show _ = foldW (V c main_arg2) (((cfg0.win 1).blk t).view.emb (ix2 p q))
  unfold foldW
  refine Finset.sum_congr rfl fun k _ => ?_
  show V c main_arg2 (((cfg0.win 0).blk t).view.emb (ix3 p q k)) = V c main_arg2 _
  refine congrArg (V c main_arg2) ?_
  funext a; apply Fin.ext
  match a with
  | ⟨0, _⟩ => show win0_0.index t (0 : Fin 3) * 64 + 1 * p.val = win0_1.index t (0 : Fin 2) * 64 + 1 * p.val; omega
  | ⟨1, _⟩ => show win0_0.index t (1 : Fin 3) * 512 + 1 * q.val = win0_1.index t (1 : Fin 2) * 512 + 1 * q.val; omega
  | ⟨2, _⟩ => show win0_0.index t (2 : Fin 3) * 64 + 1 * k.val = k.val; omega

/-- An index of the [64, 2048] array is in point t's block iff each coordinate is in the block's range. -/
theorem mem_blk (t : Fin cfg0.N) (i : S64x2048.Idx) :
    i ∈ ((cfg0.win 1).blk t).view.set ↔ ∀ a : Fin 2, win0_1.index t a * S64x512.size a ≤ (i a).val ∧ (i a).val < win0_1.index t a * S64x512.size a + S64x512.size a := by
  show i ∈ ((View.whole main_v0).slice (win0_1.rect t)).set ↔ _
  rw [View.set_slice_whole, Rect.mem_set_unit]
  exact Iff.rfl

/-- The four column blocks cover the array. -/
theorem cover (i : S64x2048.Idx) : ∃ t : Fin cfg0.N, (cfg0.win 1).flush t = true ∧ i ∈ ((cfg0.win 1).blk t).view.set := by
  have hi0 : (i 0).val < 64 := (i 0).isLt
  have hi1 : (i 1).val < 2048 := (i 1).isLt
  obtain ⟨t, ht⟩ := idx_onto ⟨(i 1).val / 512, by omega⟩
  have q0 : win0_1.index t (0 : Fin 2) = 0 := congrFun ht 0
  have q1 : win0_1.index t (1 : Fin 2) = (i 1).val / 512 := congrFun ht 1
  refine ⟨t, flush0_1 t, ?_⟩
  rw [mem_blk]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 512 ≤ (i 1).val ∧ (i 1).val < win0_1.index t (1 : Fin 2) * 512 + 512; omega

/-- After the call the [64, 2048] array holds the summed weights. -/
theorem final (c : Dev nD) : (dat0 V c).arrAt 1 cfg0.N = foldW (V c main_arg2) :=
  (dat0 V c).arrAt_eq_of_cover 1 (foldW (V c main_arg2)) (fun t _ => flushed_eq V c t) cover

end Cert.KernelIdeal.FoldValue

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Stage1.lean ====
/-
  The second kernel call, read as a value. Grid point (a, b) loads rows 1024a … 1024a+1023 of x1, columns
  1024b … 1024b+1023 of the summed weights W and the matching [1024, 1024] block of x2, multiplies the first two as
  matrices (the narrowing of the operands to a shorter float format is the identity on extended reals) and multiplies
  the product entrywise by the x2 block. Entry (p, q) of the block is (Σ_i x1[1024a+p, i] · W[i, 1024b+q]) · x2[1024a+p, 1024b+q],
  which is the block's entry of ONE function of the three arrays; the 16 × 2 blocks tile the [16384, 2048] result.
-/
import proofs.«143878_j54065048322517_1_alg».proof.Proof.Gen.KernelIdeal.Frame
import proofs.«143878_j54065048322517_1_alg».proof.Proof.Spec
import proofs.«143878_j54065048322517_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProductValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.BilinearSpec

variable (V : (c : Dev nD) → (b : Ref sig .tc) → Buf (Elt Ideal) ((c : Thread nD τ).loc b))

theorem zeros2 : (![0, 0] : Fin 2 → Nat) = fun _ => 0 := funext fun a => by fin_cases a <;> rfl

/-- The body's stored value at (p, q): the row-by-column sum times the third block's entry. -/
theorem pay_apply (x0 : FVec Ideal S1024x64 .f32) (x1 : FVec Ideal S64x1024 .f32) (x2 : FVec Ideal S1024x1024 .f32) (p q : Fin 1024) :
    k1_pay1 (F := Ideal) x0 x1 x2 (ix2 p q) = (∑ i : Fin 64, x0 (ix2 p i) * x1 (ix2 i q)) * x2 (ix2 p q) := by
  unfold k1_pay1
  show FloatOps.matmul _ none _ _ _ (ix2 p q) * x2 (ix2 p q) = _
  refine congrArg (· * x2 (ix2 p q)) ?_
  rw [shapeCast_self]
  exact PlainDot.matmul_zero_apply 1024 64 1024 (truncf .bf16 x0 bitsLt_bf16_f32) (truncf .bf16 x1 bitsLt_bf16_f32) (ix2 p q)

/-- A block's entry is the whole function's entry when the three loaded blocks read the arrays at the matching
    rows and columns: entry (p, q) of the block sits at array index E, the first block's row p is row E₀ of x1, the
    second block's column q is column E₁ of W, and the third block's entry is x2 at E. -/
theorem outOf_block (a0 : FVec Ideal S16384x64 .f32) (a1 : FVec Ideal S16384x2048 .f32) (w : FVec Ideal S64x2048 .f32)
    (b0 : FVec Ideal S1024x64 .f32) (b1 : FVec Ideal S64x1024 .f32) (b2 : FVec Ideal S1024x1024 .f32)
    (E : S16384x2048.Idx) (p q : Fin 1024)
    (h0 : ∀ i : Fin 64, b0 (ix2 p i) = a0 (ix2 (E 0) i)) (h1 : ∀ i : Fin 64, b1 (ix2 i q) = w (ix2 i (E 1)))
    (h2 : b2 (ix2 p q) = a1 E) :
    (∑ i : Fin 64, b0 (ix2 p i) * b1 (ix2 i q)) * b2 (ix2 p q) = outOf a0 a1 w E := by
  unfold outOf
  rw [h2]
  exact congrArg (· * a1 E) (Finset.sum_congr rfl fun i _ => by rw [h0 i, h1 i])

/-- The four index maps over the grid: at point (a, b) the blocks are (a, 0), (0, b), (a, b) and (a, b). -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = win1_3.index t (0 : Fin 2)
    ∧ win1_2.index t (1 : Fin 2) = win1_3.index t (1 : Fin 2) :=
  (by decide +kernel : ∀ t : Fin grid1.N, _)

/-- Every block of the result is some point's. -/
theorem idx_onto : ∀ (q0 : Fin 16) (q1 : Fin 2), ∃ t : Fin cfg1.N, win1_3.index t = ![q0.val, q1.val] :=
  (by decide +kernel : ∀ (q0 : Fin 16) (q1 : Fin 2), ∃ t : Fin grid1.N, win1_3.index t = ![q0.val, q1.val])

/-- What point t writes back is its block of ONE function of the arrays the call reads. -/
theorem flushed_eq (c : Dev nD) (t : Fin cfg1.N) :
    (dat1 V c).flushed 3 t = ((cfg1.win 3).blk t).view.read (Elt Ideal) (outOf (V c main_arg0) (V c main_arg1) (V c main_v0)) := by
  show (cfg1.win 3).cut (grid1.coords t) ((dat1 V c).after 3 t) = _
  rw [after1_3]
  unfold out1_3
  rw [View.canon_unit_zero zeros2]
  simp only [View.ld_unit_zero (S := S1024x64) zeros2, View.ld_unit_zero (S := S64x1024) zeros2, View.ld_unit_zero (S := S1024x1024) zeros2]
  obtain ⟨e0, e1, e2, e3, e4, e5⟩ := idx_facts t
  funext y
  obtain ⟨p, q, rfl⟩ : ∃ (p : Fin 1024) (q : Fin 1024), y = ix2 p q := ⟨y 0, y 1, eq_ix2 y⟩
  refine (pay_apply (iblk1 V c 0 t) (iblk1 V c 1 t) (iblk1 V c 2 t) p q).trans ?_
  refine outOf_block (V c main_arg0) (V c main_arg1) (V c main_v0) (iblk1 V c 0 t) (iblk1 V c 1 t) (iblk1 V c 2 t)
    (((cfg1.win 3).blk t).view.emb (ix2 p q)) p q ?_ ?_ ?_
  · intro i
    show V c main_arg0 (((cfg1.win 0).blk t).view.emb (ix2 p i)) = _
    refine congrArg (V c main_arg0) ?_
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 64 + 1 * i.val = i.val; omega
  · intro i
    show V c main_v0 (((cfg1.win 1).blk t).view.emb (ix2 i q)) = _
    refine congrArg (V c main_v0) ?_
    funext a; apply Fin.ext
    match a with
    | ⟨0, _⟩ => show win1_1.index t (0 : Fin 2) * 64 + 1 * i.val = i.val; omega
    | ⟨1, _⟩ => show win1_1.index t (1 : Fin 2) * 1024 + 1 * q.val = win1_3.index t (1 : Fin 2) * 1024 + 1 * q.val; omega
  · show V c main_arg1 (((cfg1.win 2).blk t).view.emb (ix2 p q)) = _
    refine congrArg (V c main_arg1) ?_
    funext a; apply Fin.ext
    match a with
    | ⟨0, _⟩ => show win1_2.index t (0 : Fin 2) * 1024 + 1 * p.val = win1_3.index t (0 : Fin 2) * 1024 + 1 * p.val; omega
    | ⟨1, _⟩ => show win1_2.index t (1 : Fin 2) * 1024 + 1 * q.val = win1_3.index t (1 : Fin 2) * 1024 + 1 * q.val; omega

/-- An index of the result array is in point t's block iff each coordinate is in the block's range. -/
theorem mem_blk (t : Fin cfg1.N) (i : S16384x2048.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- The 16 × 2 blocks cover the result array. -/
theorem cover (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  obtain ⟨t, ht⟩ := idx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- After the call the result array holds that function of the three arrays the call read. -/
theorem final (c : Dev nD) : (dat1 V c).arrAt 3 cfg1.N = outOf (V c main_arg0) (V c main_arg1) (V c main_v0) :=
  (dat1 V c).arrAt_eq_of_cover 3 (outOf (V c main_arg0) (V c main_arg1) (V c main_v0)) (fun t _ => flushed_eq V c t) cover

end Cert.KernelIdeal.ProductValue

end
-- ==== Proof.KernelValue.lean ====
/-
  The kernel program, read as a value: after its two calls the result array holds the function of the specification.
  The second call finds x1 and x2 as launched (the first call writes neither) and the intermediate array at the summed
  weights W the first call left there; its own result is then (Σ_i x1[b, i] · W(i, j)) · x2[b, j].
-/
import proofs.«143878_j54065048322517_1_alg».proof.Proof.KernelRun
import proofs.«143878_j54065048322517_1_alg».proof.Proof.Stage0
import proofs.«143878_j54065048322517_1_alg».proof.Proof.Stage1

set_option maxRecDepth 16384

noncomputable section

namespace Cert.KernelIdeal.WholeValue

open Idealize.ShloMosaic Idealize.ShloMosaic.TcCoe Idealize.ShloMosaic.ValueIdx
open Idealize.SL Idealize.SL.Sem
open Cert.KernelIdeal Cert.KernelIdeal.Gen Cert.BilinearSpec

variable (m : (ℓ : Loc nD τ sig) → Buf (Elt Ideal) ℓ) (ρ : Dev nD → PrngReg)

/-- The second call finds x1 as launched, … -/
theorem entry_arg0 (c : Dev nD) : V1 m ρ c main_arg0 = m ((c : Thread nD τ).loc main_arg0) :=
  (W1_of_ne m ρ c main_arg0 (by decide)).trans rfl
/-- … x2 as launched, … -/
theorem entry_arg1 (c : Dev nD) : V1 m ρ c main_arg1 = m ((c : Thread nD τ).loc main_arg1) :=
  (W1_of_ne m ρ c main_arg1 (by decide)).trans rfl
/-- … and the intermediate array at the summed weights. -/
theorem entry_v0 (c : Dev nD) : V1 m ρ c main_v0 = foldW (m ((c : Thread nD τ).loc main_arg2)) :=
  (W1_arr m ρ c 1).trans (FoldValue.final (V0 m ρ) c)

/-- The result array after both calls. -/
theorem final_value (c : Dev nD) :
    W2 m ρ c (Proc.devRef .tc main_v1)
      = result (m ((c : Thread nD τ).loc main_arg0)) (m ((c : Thread nD τ).loc main_arg1)) (m ((c : Thread nD τ).loc main_arg2)) := by
  refine (W2_arr m ρ c 3).trans ((ProductValue.final (V1 m ρ) c).trans ?_)
  unfold result
  exact congr (congr (congrArg outOf (entry_arg0 m ρ c)) (entry_arg1 m ρ c)) (entry_v0 m ρ c)

/-- The run: every weakly fair execution ends with the result array at the specification's function of the
    arguments and the arguments as launched. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final_value m ρ c), (h c).2⟩) (GenRun.run_main m ρ)

end Cert.KernelIdeal.WholeValue

end
-- ==== Proof.RefValue.lean ====
/-
  The reference program, read as a value: its three host operations compose to the same function of the arguments.
  The host first sums the weights over their last axis from the initial value zero, W(i, j) = 0 + Σ_k w[i, j, k]; the
  matrix product with x1 is Σ_i x1[b, i] · W(i, j); the last operation multiplies by x2[b, j] entrywise.
-/
import proofs.«143878_j54065048322517_1_alg».proof.Proof.Gen.ReferenceIdeal.Run
import proofs.«143878_j54065048322517_1_alg».proof.Proof.Gen.ReferenceIdeal.Read
import proofs.«143878_j54065048322517_1_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.BilinearSpec

/-- The host's sum of the weights over their last axis is W. -/
theorem folded_eq (x2 : FVec Ideal S64x2048x64 .f32) (i : Fin 64) (j : Fin 2048) :
    val_main_v0 (F := Ideal) x2 (ix2 i j) = foldW x2 (ix2 i j) := by
  rw [val_main_v0_apply, val_main_cst_apply]
  show Ideal.ofBits .f32 0x00000000#32 + _ = _
  rw [Ideal.ofBits_zero_f32, zero_add]
  unfold foldW
  refine Finset.sum_congr rfl fun k _ => congrArg x2 ?_
  funext a; apply Fin.ext
  match a with
  | ⟨0, _⟩ => rfl
  | ⟨1, _⟩ => rfl
  | ⟨2, _⟩ => rfl

/-- The reference's last stage is the function of the specification. -/
theorem result_eq (x0 : FVec Ideal S16384x64 .f32) (x1 : FVec Ideal S16384x2048 .f32) (x2 : FVec Ideal S64x2048x64 .f32) :
    val_main_v2 (F := Ideal) x0 x1 x2 = result x0 x1 x2 := by
  funext i
  obtain ⟨p, q, rfl⟩ : ∃ (p : Fin 16384) (q : Fin 2048), i = ix2 p q := ⟨i 0, i 1, eq_ix2 i⟩
  rw [val_main_v2_apply, val_main_v1_apply]
  show (∑ k : Fin 64, x0 (lidx_main_v1 (ix2 p q) k) * val_main_v0 (F := Ideal) x2 (ridx_main_v1 (ix2 p q) k)) * x1 (ix2 p q)
    = (∑ k : Fin 64, x0 (ix2 p k) * foldW x2 (ix2 k q)) * x1 (ix2 p q)
  refine congrArg (· * x1 (ix2 p q)) (Finset.sum_congr rfl fun k _ => ?_)
  have el : lidx_main_v1 (ix2 p q) k = ix2 p k := funext fun a => Fin.ext (by
    match a with
    | ⟨0, _⟩ => rfl
    | ⟨1, _⟩ => rfl)
  have er : ridx_main_v1 (ix2 p q) k = ix2 k q := funext fun a => Fin.ext (by
    match a with
    | ⟨0, _⟩ => rfl
    | ⟨1, _⟩ => rfl)
  rw [el, er, folded_eq]

end Cert.ReferenceIdeal.RefValue

end
-- ==== Proof.lean ====
/-
  The certificate: a Pallas kernel that first sums the weights w[i, j, k] over k in one call, W(i, j) = Σ_k w[i, j, k], and
  then, in a second call, computes out[b, j] = (Σ_i x1[b, i] · W(i, j)) · x2[b, j] block by block, against the reference
  that does the same three steps on the host. Over the extended reals the two are the same function, sum for sum and
  product for product (no regrouping is needed, so the finiteness of the inputs is never used): the kernel's narrowing of
  the matrix product's operands to a shorter float format is the identity there, and both sums start from zero.
  The three frames are the generated ones (the reference's is its run with the result dropped); the idealization rewrote
  no operation, so there is nothing to preserve; the value claim joins the kernel's run, whose result array is read off
  the two calls' write-backs, with the reference's run, read one host operation at a time.
-/
import proofs.«143878_j54065048322517_1_alg».proof.Defs
import proofs.«143878_j54065048322517_1_alg».proof.Proof.Gen.Kernel
import proofs.«143878_j54065048322517_1_alg».proof.Proof.Gen.Kernel.Skeleton
import proofs.«143878_j54065048322517_1_alg».proof.Proof.Gen.Kernel.Launch
import proofs.«143878_j54065048322517_1_alg».proof.Proof.Gen.Kernel.Points
import proofs.«143878_j54065048322517_1_alg».proof.Proof.Gen.Kernel.Frame
import proofs.«143878_j54065048322517_1_alg».proof.Proof.Gen.KernelIdeal
import proofs.«143878_j54065048322517_1_alg».proof.Proof.Gen.KernelIdeal.Skeleton
import proofs.«143878_j54065048322517_1_alg».proof.Proof.Gen.KernelIdeal.Launch
import proofs.«143878_j54065048322517_1_alg».proof.Proof.Gen.KernelIdeal.Points
import proofs.«143878_j54065048322517_1_alg».proof.Proof.Gen.KernelIdeal.Frame
import proofs.«143878_j54065048322517_1_alg».proof.Proof.Gen.ReferenceIdeal
import proofs.«143878_j54065048322517_1_alg».proof.Proof.Gen.ReferenceIdeal.Run
import proofs.«143878_j54065048322517_1_alg».proof.Proof.Gen.ReferenceIdeal.Read
import proofs.«143878_j54065048322517_1_alg».proof.Proof.Gen.Pre_finite_inputs
import proofs.«143878_j54065048322517_1_alg».proof.Proof.KernelValue
import proofs.«143878_j54065048322517_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification's function of the (agreeing) arguments. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
